-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x24 : Shape := ⟨2, ![100000, 24]⟩
abbrev S8 : Shape := ⟨1, ![8]⟩
abbrev S2x3200000 : Shape := ⟨2, ![2, 3200000]⟩
abbrev S32x64 : Shape := ⟨2, ![32, 64]⟩
abbrev S64 : Shape := ⟨1, ![64]⟩
abbrev S64x32 : Shape := ⟨2, ![64, 32]⟩
abbrev S32 : Shape := ⟨1, ![32]⟩
abbrev S_ : Shape := ⟨0, ![]⟩
abbrev S1x3200000 : Shape := ⟨2, ![1, 3200000]⟩
abbrev S3200000 : Shape := ⟨1, ![3200000]⟩

class Facts : Prop where
  bcast_S_S100000x24 : S_.BroadcastsInDim S100000x24 (![] : Fin 0 → Fin S100000x24.rank)
  reducesTo_S100000x24_S_d0_1 : S100000x24.ReducesTo [0, 1] S_
  h_S_ : 0 < S_.numel
  bcast_S_S8 : S_.BroadcastsInDim S8 (![] : Fin 0 → Fin S8.rank)
  reducesTo_S8_S_d0 : S8.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  slices_S2x3200000_S1x3200000_0_0 : S2x3200000.Slices ![0, 0] S1x3200000
  shapeCasts_S1x3200000_S3200000 : S1x3200000.ShapeCasts S3200000
  bcast_S_S3200000 : S_.BroadcastsInDim S3200000 (![] : Fin 0 → Fin S3200000.rank)
  reducesTo_S3200000_S_d0 : S3200000.ReducesTo [0] S_

variable [Facts]

def fn_part2 {F : FTy → Type} [FloatOps F] (main_v28 : IVec S_ 1) (main_v30 : IVec S3200000 32) (main_v32 : IVec S3200000 1) (main_v33 : IVec S3200000 32) : IVec S_ 1 :=
  let main_v34 : IVec S3200000 1 := cmpi .slt main_v30 main_v33
  let main_v35 : IVec S3200000 1 := andi main_v32 main_v34
  let main_c_12 : IVec S_ 1 := constantI S_ 1 1#1
  let main_v36 : IVec S_ 1 := (fun x v => Host.reduce IntOp.andi x v reducesTo_S3200000_S_d0 h_S_) main_v35 main_c_12
  let main_v37 : IVec S_ 1 := andi main_v28 main_v36
  main_v37

def fn_part1 {F : FTy → Type} [FloatOps F] (main_arg2 : IVec S2x3200000 32) (main_arg5 : FVec F S64x32 .f32) (main_arg6 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x32 .f32 := Host.absf main_arg5
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : IVec S1x3200000 32 := (extractStridedSlice S1x3200000 ![0, 0] · slices_S2x3200000_S1x3200000_0_0) main_arg2
  let main_v30 : IVec S3200000 32 := shapeCast S3200000 main_v29 shapeCasts_S1x3200000_S3200000
  let main_c_10 : IVec S_ 32 := constantI S_ 32 4294867296#32
  let main_v31 : IVec S3200000 32 := broadcastInDim S3200000 ![] bcast_S_S3200000 main_c_10
  let main_v32 : IVec S3200000 1 := cmpi .sge main_v30 main_v31
  let main_c_11 : IVec S_ 32 := constantI S_ 32 100000#32
  let main_v33 : IVec S3200000 32 := broadcastInDim S3200000 ![] bcast_S_S3200000 main_c_11
  fn_part2 (F := F) main_v28 main_v30 main_v32 main_v33

def fn {F : FTy → Type} [FloatOps F] (main_arg0 : FVec F S100000x24 .f32) (main_arg1 : FVec F S8 .f32) (main_arg2 : IVec S2x3200000 32) (main_arg3 : FVec F S32x64 .f32) (main_arg4 : FVec F S64 .f32) (main_arg5 : FVec F S64x32 .f32) (main_arg6 : FVec F S32 .f32) : IVec S_ 1 :=
  let main_v0 : FVec F S100000x24 .f32 := Host.absf main_arg0
  let main_cst : FVec F S_ .f32 := constant S_ .f32 0x7F800000#32
  let main_v1 : FVec F S100000x24 .f32 := broadcastInDim S100000x24 ![] bcast_S_S100000x24 main_cst
  let main_v2 : IVec S100000x24 1 := cmpf .olt main_v0 main_v1
  let main_c : IVec S_ 1 := constantI S_ 1 1#1
  let main_v3 : IVec S_ 1 := (fun x v => Host.reduce IntOp.andi x v reducesTo_S100000x24_S_d0_1 h_S_) main_v2 main_c
  let main_v4 : FVec F S8 .f32 := Host.absf main_arg1
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  let main_v9 : FVec F S32x64 .f32 := Host.absf main_arg3
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg2 main_arg5 main_arg6 main_v13 main_v16
-- ==== Kernel.lean ====
abbrev S100000x24 : Shape := ⟨2, ![100000, 24]⟩
abbrev S8 : Shape := ⟨1, ![8]⟩
abbrev S2x3200000 : Shape := ⟨2, ![2, 3200000]⟩
abbrev S32x64 : Shape := ⟨2, ![32, 64]⟩
abbrev S64 : Shape := ⟨1, ![64]⟩
abbrev S64x32 : Shape := ⟨2, ![64, 32]⟩
abbrev S32 : Shape := ⟨1, ![32]⟩
abbrev S1x8 : Shape := ⟨2, ![1, 8]⟩
abbrev S100000x8 : Shape := ⟨2, ![100000, 8]⟩
abbrev S100000x32 : Shape := ⟨2, ![100000, 32]⟩
abbrev S_ : Shape := ⟨0, ![]⟩
abbrev S102400x32 : Shape := ⟨2, ![102400, 32]⟩
abbrev S1x64 : Shape := ⟨2, ![1, 64]⟩
abbrev S1x32 : Shape := ⟨2, ![1, 32]⟩
abbrev S12800x32 : Shape := ⟨2, ![12800, 32]⟩
abbrev S12800x64 : Shape := ⟨2, ![12800, 64]⟩
abbrev S1x3200000 : Shape := ⟨2, ![1, 3200000]⟩
abbrev S3200000 : Shape := ⟨1, ![3200000]⟩
abbrev S3200000x1 : Shape := ⟨2, ![3200000, 1]⟩
abbrev S1 : Shape := ⟨1, ![1]⟩
abbrev S1x1 : Shape := ⟨2, ![1, 1]⟩
abbrev S3200000x32 : Shape := ⟨2, ![3200000, 32]⟩

abbrev nBuf : Space → Nat
  | .hbm => 48
  | .vmem => 8
  | .smem => 0
  | _ => 0

abbrev bufTy : (tb : Table) → Fin (tcTables nBuf tb) → BufTy
  | .hbm, ⟨0, _⟩ => ⟨S100000x24, .f32⟩
  | .hbm, ⟨1, _⟩ => ⟨S8, .f32⟩
  | .hbm, ⟨2, _⟩ => ⟨S2x3200000, .i32⟩
  | .hbm, ⟨3, _⟩ => ⟨S32x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S1x8, .f32⟩
  | .hbm, ⟨8, _⟩ => ⟨S100000x8, .f32⟩
  | .hbm, ⟨9, _⟩ => ⟨S100000x32, .f32⟩
  | .hbm, ⟨10, _⟩ => ⟨S_, .i32⟩
  | .hbm, ⟨11, _⟩ => ⟨S_, .f32⟩
  | .hbm, ⟨12, _⟩ => ⟨S102400x32, .f32⟩
  | .hbm, ⟨13, _⟩ => ⟨S1x64, .f32⟩
  | .hbm, ⟨14, _⟩ => ⟨S1x32, .f32⟩
  | .hbm, ⟨15, _⟩ => ⟨S102400x32, .f32⟩
  | .hbm, ⟨16, _⟩ => ⟨S100000x32, .f32⟩
  | .hbm, ⟨17, _⟩ => ⟨S1x3200000, .i32⟩
  | .hbm, ⟨18, _⟩ => ⟨S3200000, .i32⟩
  | .hbm, ⟨19, _⟩ => ⟨S1x3200000, .i32⟩
  | .hbm, ⟨20, _⟩ => ⟨S3200000, .i32⟩
  | .hbm, ⟨21, _⟩ => ⟨S_, .i32⟩
  | .hbm, ⟨22, _⟩ => ⟨S3200000, .i32⟩
  | .hbm, ⟨23, _⟩ => ⟨S3200000, .i1⟩
  | .hbm, ⟨24, _⟩ => ⟨S_, .i32⟩
  | .hbm, ⟨25, _⟩ => ⟨S3200000, .i32⟩
  | .hbm, ⟨26, _⟩ => ⟨S3200000, .i32⟩
  | .hbm, ⟨27, _⟩ => ⟨S3200000, .i32⟩
  | .hbm, ⟨28, _⟩ => ⟨S3200000x1, .i32⟩
  | .hbm, ⟨29, _⟩ => ⟨S1, .i32⟩
  | .hbm, ⟨30, _⟩ => ⟨S_, .i32⟩
  | .hbm, ⟨31, _⟩ => ⟨S3200000x1, .i32⟩
  | .hbm, ⟨32, _⟩ => ⟨S3200000x1, .i1⟩
  | .hbm, ⟨33, _⟩ => ⟨S1x1, .i32⟩
  | .hbm, ⟨34, _⟩ => ⟨S3200000x1, .i32⟩
  | .hbm, ⟨35, _⟩ => ⟨S3200000x1, .i1⟩
  | .hbm, ⟨36, _⟩ => ⟨S3200000x1, .i1⟩
  | .hbm, ⟨37, _⟩ => ⟨S_, .i1⟩
  | .hbm, ⟨38, _⟩ => ⟨S3200000, .i1⟩
  | .hbm, ⟨39, _⟩ => ⟨S3200000x32, .f32⟩
  | .hbm, ⟨40, _⟩ => ⟨S3200000x32, .i1⟩
  | .hbm, ⟨41, _⟩ => ⟨S_, .f32⟩
  | .hbm, ⟨42, _⟩ => ⟨S3200000x32, .f32⟩
  | .hbm, ⟨43, _⟩ => ⟨S3200000x32, .f32⟩
  | .hbm, ⟨44, _⟩ => ⟨S_, .f32⟩
  | .hbm, ⟨45, _⟩ => ⟨S100000x32, .f32⟩
  | .hbm, ⟨46, _⟩ => ⟨S3200000x1, .i32⟩
  | .hbm, ⟨47, _⟩ => ⟨S100000x32, .f32⟩
  | .local _ .vmem, ⟨0, _⟩ => ⟨S12800x32, .f32⟩
  | .local _ .vmem, ⟨1, _⟩ => ⟨S12800x32, .f32⟩
  | .local _ .vmem, ⟨2, _⟩ => ⟨S32x64, .f32⟩
  | .local _ .vmem, ⟨3, _⟩ => ⟨S1x64, .f32⟩
  | .local _ .vmem, ⟨4, _⟩ => ⟨S64x32, .f32⟩
  | .local _ .vmem, ⟨5, _⟩ => ⟨S1x32, .f32⟩
  | .local _ .vmem, ⟨6, _⟩ => ⟨S12800x32, .f32⟩
  | .local _ .vmem, ⟨7, _⟩ => ⟨S12800x32, .f32⟩
  | _, _ => ⟨S100000x24, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_call1_c : Ref sig .tc := ⟨.hbm, 21, rfl⟩
abbrev main_call1_v0 : Ref sig .tc := ⟨.hbm, 22, rfl⟩
abbrev main_call1_v1 : Ref sig .tc := ⟨.hbm, 23, rfl⟩
abbrev main_call1_c_0 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_v5 : Ref sig .tc := ⟨.hbm, 28, rfl⟩
abbrev main_call1_c_1 : Ref sig .tc := ⟨.hbm, 29, rfl⟩
abbrev main_call1_c_2 : Ref sig .tc := ⟨.hbm, 30, rfl⟩
abbrev main_call1_v6 : Ref sig .tc := ⟨.hbm, 31, rfl⟩
abbrev main_call1_v7 : Ref sig .tc := ⟨.hbm, 32, rfl⟩
abbrev main_call1_v8 : Ref sig .tc := ⟨.hbm, 33, rfl⟩
abbrev main_call1_v9 : Ref sig .tc := ⟨.hbm, 34, rfl⟩
abbrev main_call1_v10 : Ref sig .tc := ⟨.hbm, 35, rfl⟩
abbrev main_call1_v11 : Ref sig .tc := ⟨.hbm, 36, rfl⟩
abbrev main_call1_c_3 : Ref sig .tc := ⟨.hbm, 37, rfl⟩
abbrev main_call1_v12 : Ref sig .tc := ⟨.hbm, 38, rfl⟩
abbrev main_call1_v13 : Ref sig .tc := ⟨.hbm, 39, rfl⟩
abbrev main_call1_v14 : Ref sig .tc := ⟨.hbm, 40, rfl⟩
abbrev main_call1_cst : Ref sig .tc := ⟨.hbm, 41, rfl⟩
abbrev main_call1_v15 : Ref sig .tc := ⟨.hbm, 42, rfl⟩
abbrev main_v12 : Ref sig .tc := ⟨.hbm, 43, rfl⟩
abbrev main_cst : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S12800x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S12800x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S8_S1x8 : S8.ShapeCasts S1x8
  bcast_S1x8_S100000x8_0_1 : S1x8.BroadcastsInDim S100000x8 (![0, 1] : Fin 2 → Fin S100000x8.rank)
  concatenates_S100000x24_S100000x8_S100000x32_d1 : Shape.Concatenates [S100000x24, S100000x8] S100000x32 1
  pads_S100000x32_S102400x32_024000_000 : S100000x32.Pads (![0, 0] : Fin 2 → Nat) ![2400, 0] ![0, 0] S102400x32
  h_S_ : 0 < S_.numel
  shapeCasts_S64_S1x64 : S64.ShapeCasts S1x64
  shapeCasts_S32_S1x32 : S32.ShapeCasts S1x32
  inb_S12800x32_S12800x32_0_0 : ∀ a, (![0, 0] : Fin 2 → Nat) a + S12800x32.size a ≤ S12800x32.size a
  h_S12800x32 : 0 < S12800x32.numel
  shapeCasts_S12800x32_S12800x32 : S12800x32.ShapeCasts S12800x32
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S12800x64 : S1x64.Broadcasts S12800x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S12800x32 : S1x32.Broadcasts S12800x32
  slices_S102400x32_S100000x32_0_0 : S102400x32.Slices ![0, 0] S100000x32
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S3200000x1 : S_.BroadcastsInDim S3200000x1 (![] : Fin 0 → Fin S3200000x1.rank)
  bcast_S1_S1x1_1 : S1.BroadcastsInDim S1x1 (![1] : Fin 1 → Fin S1x1.rank)
  bcast_S1x1_S3200000x1_0_1 : S1x1.BroadcastsInDim S3200000x1 (![0, 1] : Fin 2 → Fin S3200000x1.rank)
  reducesTo_S3200000x1_S3200000_d1 : S3200000x1.ReducesTo [1] S3200000
  bcast_S3200000_S3200000x32_0 : S3200000.BroadcastsInDim S3200000x32 (![0] : Fin 1 → Fin S3200000x32.rank)
  bcast_S_S3200000x32 : S_.BroadcastsInDim S3200000x32 (![] : Fin 0 → Fin S3200000x32.rank)
  bcast_S_S100000x32 : S_.BroadcastsInDim S100000x32 (![] : Fin 0 → Fin S100000x32.rank)
  dot_S12800x32_S32x64_S12800x64_1_0_0_1_n_n_wf : DotDims.WF S12800x32 S32x64 S12800x64 [1] [0] [0] [1] [] []
  dot_S12800x64_S64x32_S12800x32_1_0_0_1_n_n_wf : DotDims.WF S12800x64 S64x32 S12800x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S12800x32.size a ≤ S102400x32.size a
  hwx0_0 : ∀ i : grid0.Coords, EltTy.bits .f32 = 32 ∨ (Rect.block (s := S102400x32) S12800x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x32.size a ≤ S64x32.size a
  hwx0_3 : ∀ i : grid0.Coords, EltTy.bits .f32 = 32 ∨ (Rect.block (s := S64x32) S64x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S12800x32.size a ≤ S102400x32.size a
  hwx0_5 : ∀ i : grid0.Coords, EltTy.bits .f32 = 32 ∨ (Rect.block (s := S102400x32) S12800x32.size (cc0_transform_5 i) (hinb0_5 i)).WholeWords (EltTy.packing .f32)

variable [Facts₀]

def dot_S12800x32_S32x64_S12800x64_1_0_0_1_n_n : DotDims S12800x32 S32x64 S12800x64 where
  lhsContracting := [1]
  rhsContracting := [0]
  lhsNonContracting := [0]
  rhsNonContracting := [1]
  lhsBatch := []
  rhsBatch := []
  wf := dot_S12800x32_S32x64_S12800x64_1_0_0_1_n_n_wf
def dot_S12800x64_S64x32_S12800x32_1_0_0_1_n_n : DotDims S12800x64 S64x32 S12800x32 where
  lhsContracting := [1]
  rhsContracting := [0]
  lhsNonContracting := [0]
  rhsNonContracting := [1]
  lhsBatch := []
  rhsBatch := []
  wf := dot_S12800x64_S64x32_S12800x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf

abbrev win0_0 : Pipeline.Window sig grid0 :=
  Pipeline.Window.ofSpec (Memref.whole main_v3) S12800x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S12800x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x24 : Shape := ⟨2, ![100000, 24]⟩
abbrev S8 : Shape := ⟨1, ![8]⟩
abbrev S2x3200000 : Shape := ⟨2, ![2, 3200000]⟩
abbrev S32x64 : Shape := ⟨2, ![32, 64]⟩
abbrev S64 : Shape := ⟨1, ![64]⟩
abbrev S64x32 : Shape := ⟨2, ![64, 32]⟩
abbrev S32 : Shape := ⟨1, ![32]⟩
abbrev S1x8 : Shape := ⟨2, ![1, 8]⟩
abbrev S100000x8 : Shape := ⟨2, ![100000, 8]⟩
abbrev S100000x32 : Shape := ⟨2, ![100000, 32]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x32 : Shape := ⟨2, ![3200000, 32]⟩
abbrev S3200000x64 : Shape := ⟨2, ![3200000, 64]⟩
abbrev S1x64 : Shape := ⟨2, ![1, 64]⟩
abbrev S1x32 : Shape := ⟨2, ![1, 32]⟩

abbrev nBuf : Space → Nat
  | .hbm => 38
  | .vmem => 0
  | .smem => 0
  | _ => 0

abbrev bufTy : (tb : Table) → Fin (tcTables nBuf tb) → BufTy
  | .hbm, ⟨0, _⟩ => ⟨S100000x24, .f32⟩
  | .hbm, ⟨1, _⟩ => ⟨S8, .f32⟩
  | .hbm, ⟨2, _⟩ => ⟨S2x3200000, .i32⟩
  | .hbm, ⟨3, _⟩ => ⟨S32x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S1x8, .f32⟩
  | .hbm, ⟨8, _⟩ => ⟨S100000x8, .f32⟩
  | .hbm, ⟨9, _⟩ => ⟨S100000x32, .f32⟩
  | .hbm, ⟨10, _⟩ => ⟨S1x3200000, .i32⟩
  | .hbm, ⟨11, _⟩ => ⟨S3200000, .i32⟩
  | .hbm, ⟨12, _⟩ => ⟨S1x3200000, .i32⟩
  | .hbm, ⟨13, _⟩ => ⟨S3200000, .i32⟩
  | .hbm, ⟨14, _⟩ => ⟨S_, .i32⟩
  | .hbm, ⟨15, _⟩ => ⟨S3200000, .i32⟩
  | .hbm, ⟨16, _⟩ => ⟨S3200000, .i1⟩
  | .hbm, ⟨17, _⟩ => ⟨S_, .i32⟩
  | .hbm, ⟨18, _⟩ => ⟨S3200000, .i32⟩
  | .hbm, ⟨19, _⟩ => ⟨S3200000, .i32⟩
  | .hbm, ⟨20, _⟩ => ⟨S3200000, .i32⟩
  | .hbm, ⟨21, _⟩ => ⟨S3200000x1, .i32⟩
  | .hbm, ⟨22, _⟩ => ⟨S3200000x32, .f32⟩
  | .hbm, ⟨23, _⟩ => ⟨S3200000x64, .f32⟩
  | .hbm, ⟨24, _⟩ => ⟨S1x64, .f32⟩
  | .hbm, ⟨25, _⟩ => ⟨S3200000x64, .f32⟩
  | .hbm, ⟨26, _⟩ => ⟨S3200000x64, .f32⟩
  | .hbm, ⟨27, _⟩ => ⟨S_, .f32⟩
  | .hbm, ⟨28, _⟩ => ⟨S3200000x64, .f32⟩
  | .hbm, ⟨29, _⟩ => ⟨S3200000x64, .f32⟩
  | .hbm, ⟨30, _⟩ => ⟨S3200000x32, .f32⟩
  | .hbm, ⟨31, _⟩ => ⟨S1x32, .f32⟩
  | .hbm, ⟨32, _⟩ => ⟨S3200000x32, .f32⟩
  | .hbm, ⟨33, _⟩ => ⟨S3200000x32, .f32⟩
  | .hbm, ⟨34, _⟩ => ⟨S_, .f32⟩
  | .hbm, ⟨35, _⟩ => ⟨S100000x32, .f32⟩
  | .hbm, ⟨36, _⟩ => ⟨S3200000x1, .i32⟩
  | .hbm, ⟨37, _⟩ => ⟨S100000x32, .f32⟩
  | _, _ => ⟨S100000x24, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_cst : Ref sig .tc := ⟨.hbm, 27, rfl⟩
abbrev main_call0_v0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩

abbrev nD : Nat := 1
abbrev τ : Topo := Topo.v7x

variable {F : FTy → Type} [FloatOps F]

class Facts₀ : Prop where
  shapeCasts_S8_S1x8 : S8.ShapeCasts S1x8
  bcast_S1x8_S100000x8_0_1 : S1x8.BroadcastsInDim S100000x8 (![0, 1] : Fin 2 → Fin S100000x8.rank)
  concatenates_S100000x24_S100000x8_S100000x32_d1 : Shape.Concatenates [S100000x24, S100000x8] S100000x32 1
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S64_S1x64_1 : S64.BroadcastsInDim S1x64 (![1] : Fin 1 → Fin S1x64.rank)
  bcast_S1x64_S3200000x64_0_1 : S1x64.BroadcastsInDim S3200000x64 (![0, 1] : Fin 2 → Fin S3200000x64.rank)
  bcast_S_S3200000x64 : S_.BroadcastsInDim S3200000x64 (![] : Fin 0 → Fin S3200000x64.rank)
  bcast_S32_S1x32_1 : S32.BroadcastsInDim S1x32 (![1] : Fin 1 → Fin S1x32.rank)
  bcast_S1x32_S3200000x32_0_1 : S1x32.BroadcastsInDim S3200000x32 (![0, 1] : Fin 2 → Fin S3200000x32.rank)
  bcast_S_S100000x32 : S_.BroadcastsInDim S100000x32 (![] : Fin 0 → Fin S100000x32.rank)
  gather_S100000x32_S3200000x1_S3200000x32_1_0_n_n_0_1_132_wf : GatherDims.WF S100000x32 S3200000x1 S3200000x32 [1] [0] [] [0] [] 1 ![1, 32]
  dot_S3200000x32_S32x64_S3200000x64_1_0_0_1_n_n_wf : DotDims.WF S3200000x32 S32x64 S3200000x64 [1] [0] [0] [1] [] []
  dot_S3200000x64_S64x32_S3200000x32_1_0_0_1_n_n_wf : DotDims.WF S3200000x64 S64x32 S3200000x32 [1] [0] [0] [1] [] []
  scatter_S100000x32_S3200000x1_S3200000x32_1_0_0_1_wf : ScatterDims.WF S100000x32 S3200000x1 S3200000x32 [1] [0] [0] 1

variable [Facts₀]

def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def dot_S3200000x32_S32x64_S3200000x64_1_0_0_1_n_n : DotDims S3200000x32 S32x64 S3200000x64 where
  lhsContracting := [1]
  rhsContracting := [0]
  lhsNonContracting := [0]
  rhsNonContracting := [1]
  lhsBatch := []
  rhsBatch := []
  wf := dot_S3200000x32_S32x64_S3200000x64_1_0_0_1_n_n_wf
def dot_S3200000x64_S64x32_S3200000x32_1_0_0_1_n_n : DotDims S3200000x64 S64x32 S3200000x32 where
  lhsContracting := [1]
  rhsContracting := [0]
  lhsNonContracting := [0]
  rhsNonContracting := [1]
  lhsBatch := []
  rhsBatch := []
  wf := dot_S3200000x64_S64x32_S3200000x32_1_0_0_1_n_n_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf

class Facts : Prop extends Facts₀ where

variable [Facts]
-- ==== Proof.Mlp.lean ====
/-
  One row through the two-layer perceptron, on the extended reals.

  A row x of 32 features goes to relu(x · W1 + b1) · W2 + b2: 64 hidden units, 32 outputs. Both programs
  apply this same function to rows of the node table [x | scalars]; they differ only in WHEN a row is
  selected — the kernel selects among the rows of the finished table, the reference selects the input row
  first — and selecting a row commutes with a function applied to each row separately.
-/
import Idealize.ShloMosaic.PureOps.Ideal
import Idealize.ShloMosaic.Lib.ValueIdx

noncomputable section

namespace Mlp

/-- Output `q` of the perceptron at the row `x`: `∑ₖ max(∑ₗ x l · W1 l k + b1 k, 0) · W2 k q + b2 q`. -/
def row (W1 : Fin 32 → Fin 64 → EReal) (b1 : Fin 64 → EReal) (W2 : Fin 64 → Fin 32 → EReal) (b2 : Fin 32 → EReal)
    (x : Fin 32 → EReal) (q : Fin 32) : EReal :=
  (∑ k : Fin 64, max ((∑ l : Fin 32, x l * W1 l k) + b1 k) 0 * W2 k q) + b2 q

end Mlp

end
-- ==== Proof.KernelBlock.lean ====
/-
  What the kernel body stores, entry by entry.

  At one grid point the body holds a block of 12800 rows of the padded node table, and the weights and
  biases whole. Entry (p, q) of what it stores is the perceptron of Mlp.lean at row p of that block: the two
  roundings to bf16 are the identity on the extended reals, a matrix product into a zero accumulator is the
  plain sum over the contracted axis, and each bias, a [1, n] row broadcast over the rows, is read at its column.
-/
import proofs.«415394_j4123168604885_3_alg».proof.Proof.Gen.KernelIdeal.Skeleton
import proofs.«415394_j4123168604885_3_alg».proof.Proof.Mlp
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Block

open Cert.KernelIdeal Cert.KernelIdeal.Gen Idealize.ShloMosaic Idealize.ShloMosaic.ValueIdx

/-! ## The two matrix products read at an entry -/

theorem lhs1_0 (i : S12800x64.Idx) (c : dot_S12800x32_S32x64_S12800x64_1_0_0_1_n_n.contr.Idx) :
    (dot_S12800x32_S32x64_S12800x64_1_0_0_1_n_n.lhsIdx i c 0).val = (i 0).val := by
  unfold DotDims.lhsIdx
  rw [dif_neg (show ¬(0 : Fin S12800x32.rank) ∈ dot_S12800x32_S32x64_S12800x64_1_0_0_1_n_n.lhsBatch by decide), dif_pos (show (0 : Fin S12800x32.rank) ∈ dot_S12800x32_S32x64_S12800x64_1_0_0_1_n_n.lhsNonContracting by decide)]
  rfl
theorem lhs1_1 (i : S12800x64.Idx) (c : dot_S12800x32_S32x64_S12800x64_1_0_0_1_n_n.contr.Idx) :
    (dot_S12800x32_S32x64_S12800x64_1_0_0_1_n_n.lhsIdx i c 1).val = (c ⟨0, by decide⟩).val :=
  dot_S12800x32_S32x64_S12800x64_1_0_0_1_n_n.lhsIdx_val_of_single rfl i c
theorem rhs1_0 (i : S12800x64.Idx) (c : dot_S12800x32_S32x64_S12800x64_1_0_0_1_n_n.contr.Idx) :
    (dot_S12800x32_S32x64_S12800x64_1_0_0_1_n_n.rhsIdx i c 0).val = (c ⟨0, by decide⟩).val :=
  dot_S12800x32_S32x64_S12800x64_1_0_0_1_n_n.rhsIdx_val_of_single rfl i c
theorem rhs1_1 (i : S12800x64.Idx) (c : dot_S12800x32_S32x64_S12800x64_1_0_0_1_n_n.contr.Idx) :
    (dot_S12800x32_S32x64_S12800x64_1_0_0_1_n_n.rhsIdx i c 1).val = (i 1).val := by
  unfold DotDims.rhsIdx
  rw [dif_neg (show ¬(1 : Fin S32x64.rank) ∈ dot_S12800x32_S32x64_S12800x64_1_0_0_1_n_n.rhsBatch by decide), dif_pos (show (1 : Fin S32x64.rank) ∈ dot_S12800x32_S32x64_S12800x64_1_0_0_1_n_n.rhsNonContracting by decide)]
  rfl

/-- The first product, [12800, 32] by [32, 64] into zeros: entry (p, j) is the sum over the 32 features. -/
theorem prod1 (a : FVec Ideal S12800x32 .bf16) (w : FVec Ideal S32x64 .bf16) (p : Fin 12800) (j : Fin 64) :
    matmul dot_S12800x32_S32x64_S12800x64_1_0_0_1_n_n none a w (constant (F := Ideal) S12800x64 .f32 0x00000000#32) (ix2 p j)
      = ∑ l : Fin 32, a (ix2 p l) * w (ix2 l j) := by
  show FloatOps.matmul _ _ _ _ _ _ = _
  rw [Ideal.matmul_constant_zero_apply, ← Equiv.sum_comp (contrEquiv1 dot_S12800x32_S32x64_S12800x64_1_0_0_1_n_n 32 rfl rfl).symm]
  refine Finset.sum_congr rfl fun l _ => ?_
  have hl := contrEquiv1_symm_val dot_S12800x32_S32x64_S12800x64_1_0_0_1_n_n 32 rfl rfl l
  have el : dot_S12800x32_S32x64_S12800x64_1_0_0_1_n_n.lhsIdx (ix2 p j) ((contrEquiv1 dot_S12800x32_S32x64_S12800x64_1_0_0_1_n_n 32 rfl rfl).symm l) = ix2 p l := funext fun ax => Fin.ext (by
    match ax with
    | ⟨0, _⟩ => exact lhs1_0 _ _
    | ⟨1, _⟩ => exact (lhs1_1 _ _).trans hl)
  have er : dot_S12800x32_S32x64_S12800x64_1_0_0_1_n_n.rhsIdx (ix2 p j) ((contrEquiv1 dot_S12800x32_S32x64_S12800x64_1_0_0_1_n_n 32 rfl rfl).symm l) = ix2 l j := funext fun ax => Fin.ext (by
    match ax with
    | ⟨0, _⟩ => exact (rhs1_0 _ _).trans hl
    | ⟨1, _⟩ => exact rhs1_1 _ _)
  rw [el, er]

theorem lhs2_0 (i : S12800x32.Idx) (c : dot_S12800x64_S64x32_S12800x32_1_0_0_1_n_n.contr.Idx) :
    (dot_S12800x64_S64x32_S12800x32_1_0_0_1_n_n.lhsIdx i c 0).val = (i 0).val := by
  unfold DotDims.lhsIdx
  rw [dif_neg (show ¬(0 : Fin S12800x64.rank) ∈ dot_S12800x64_S64x32_S12800x32_1_0_0_1_n_n.lhsBatch by decide), dif_pos (show (0 : Fin S12800x64.rank) ∈ dot_S12800x64_S64x32_S12800x32_1_0_0_1_n_n.lhsNonContracting by decide)]
  rfl
theorem lhs2_1 (i : S12800x32.Idx) (c : dot_S12800x64_S64x32_S12800x32_1_0_0_1_n_n.contr.Idx) :
    (dot_S12800x64_S64x32_S12800x32_1_0_0_1_n_n.lhsIdx i c 1).val = (c ⟨0, by decide⟩).val :=
  dot_S12800x64_S64x32_S12800x32_1_0_0_1_n_n.lhsIdx_val_of_single rfl i c
theorem rhs2_0 (i : S12800x32.Idx) (c : dot_S12800x64_S64x32_S12800x32_1_0_0_1_n_n.contr.Idx) :
    (dot_S12800x64_S64x32_S12800x32_1_0_0_1_n_n.rhsIdx i c 0).val = (c ⟨0, by decide⟩).val :=
  dot_S12800x64_S64x32_S12800x32_1_0_0_1_n_n.rhsIdx_val_of_single rfl i c
theorem rhs2_1 (i : S12800x32.Idx) (c : dot_S12800x64_S64x32_S12800x32_1_0_0_1_n_n.contr.Idx) :
    (dot_S12800x64_S64x32_S12800x32_1_0_0_1_n_n.rhsIdx i c 1).val = (i 1).val := by
  unfold DotDims.rhsIdx
  rw [dif_neg (show ¬(1 : Fin S64x32.rank) ∈ dot_S12800x64_S64x32_S12800x32_1_0_0_1_n_n.rhsBatch by decide), dif_pos (show (1 : Fin S64x32.rank) ∈ dot_S12800x64_S64x32_S12800x32_1_0_0_1_n_n.rhsNonContracting by decide)]
  rfl

/-- The second product, [12800, 64] by [64, 32] into zeros: entry (p, j) is the sum over the 64 hidden units. -/
theorem prod2 (a : FVec Ideal S12800x64 .bf16) (w : FVec Ideal S64x32 .bf16) (p : Fin 12800) (j : Fin 32) :
    matmul dot_S12800x64_S64x32_S12800x32_1_0_0_1_n_n none a w (constant (F := Ideal) S12800x32 .f32 0x00000000#32) (ix2 p j)
      = ∑ l : Fin 64, a (ix2 p l) * w (ix2 l j) := by
  show FloatOps.matmul _ _ _ _ _ _ = _
  rw [Ideal.matmul_constant_zero_apply, ← Equiv.sum_comp (contrEquiv1 dot_S12800x64_S64x32_S12800x32_1_0_0_1_n_n 64 rfl rfl).symm]
  refine Finset.sum_congr rfl fun l _ => ?_
  have hl := contrEquiv1_symm_val dot_S12800x64_S64x32_S12800x32_1_0_0_1_n_n 64 rfl rfl l
  have el : dot_S12800x64_S64x32_S12800x32_1_0_0_1_n_n.lhsIdx (ix2 p j) ((contrEquiv1 dot_S12800x64_S64x32_S12800x32_1_0_0_1_n_n 64 rfl rfl).symm l) = ix2 p l := funext fun ax => Fin.ext (by
    match ax with
    | ⟨0, _⟩ => exact lhs2_0 _ _
    | ⟨1, _⟩ => exact (lhs2_1 _ _).trans hl)
  have er : dot_S12800x64_S64x32_S12800x32_1_0_0_1_n_n.rhsIdx (ix2 p j) ((contrEquiv1 dot_S12800x64_S64x32_S12800x32_1_0_0_1_n_n 64 rfl rfl).symm l) = ix2 l j := funext fun ax => Fin.ext (by
    match ax with
    | ⟨0, _⟩ => exact (rhs2_0 _ _).trans hl
    | ⟨1, _⟩ => exact rhs2_1 _ _)
  rw [el, er]

/-! ## The stored block -/

/-- The scalar zero the body splats for the relu denotes 0. -/
theorem zero_splat : Scalar.ofBits (F := Ideal) .f32 0x00000000#32 = (0 : EReal) := Ideal.ofBits_zero_f32

/-- Entry (p, q) of the stored block is the perceptron at row p of the input block. -/
theorem pay_apply (x0 : Vec Ideal S12800x32 .f32) (x1 : Vec Ideal S32x64 .f32) (x2 : Vec Ideal S1x64 .f32)
    (x3 : Vec Ideal S64x32 .f32) (x4 : Vec Ideal S1x32 .f32) (p : Fin 12800) (q : Fin 32) :
    k0_pay1 (F := Ideal) x0 x1 x2 x3 x4 (ix2 p q)
      = Mlp.row (fun l k => x1 (ix2 l k)) (fun k => x2 (ix2 (0 : Fin 1) k)) (fun k j => x3 (ix2 k j))
          (fun j => x4 (ix2 (0 : Fin 1) j)) (fun l => x0 (ix2 p l)) q := by
  unfold k0_pay1 Mlp.row
  simp only [addf_apply, prod2, truncf_apply, maximumf_apply, prod1, broadcast_apply, shapeCast_self,
    broadcastTo_1b_ab_apply, zero_splat]

end Cert.KernelIdeal.Block

end
-- ==== Proof.KernelArray.lean ====
/-
  The padded message table after the region.

  The region runs the body at 8 grid points; point t reads rows [12800·t, 12800·(t+1)) of the padded node
  table (102400 rows) and the weights and biases whole, and writes back the same rows of the output. The
  8 output blocks tile the output, and by KernelBlock.lean each stored entry is the perceptron of its own
  input row. So after the region the output holds, at every (r, q), the perceptron of row r of the padded
  node table: one function of the arrays as the region finds them.
-/
import proofs.«415394_j4123168604885_3_alg».proof.Proof.Gen.KernelIdeal.Frame
import proofs.«415394_j4123168604885_3_alg».proof.Proof.KernelBlock

set_option maxRecDepth 16384

noncomputable section

namespace Cert.KernelIdeal.Arr

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The perceptron applied to every row of a padded table [102400, 32], the biases given as [1, n] rows. -/
def msgPad (hp : S102400x32.Idx → EReal) (W1 : S32x64.Idx → EReal) (b1 : S1x64.Idx → EReal)
    (W2 : S64x32.Idx → EReal) (b2 : S1x32.Idx → EReal) : S102400x32.Idx → EReal := fun i =>
  Mlp.row (fun l k => W1 (ix2 l k)) (fun k => b1 (ix2 (0 : Fin 1) k)) (fun k j => W2 (ix2 k j))
    (fun j => b2 (ix2 (0 : Fin 1) j)) (fun l => hp (ix2 (i 0) l)) (i 1)

/-- The printed index maps over the grid: the input rows move with the output rows, every other block index is 0,
    and the output's row-block index is the point. -/
theorem idx_facts : ∀ t : Fin cfg0.N, win0_0.index t (0 : Fin 2) = win0_5.index t (0 : Fin 2)
    ∧ win0_0.index t (1 : Fin 2) = 0 ∧ win0_5.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 7 :=
  (by decide +kernel : ∀ t : Fin grid0.N, _)

/-- Every row block of the output is some point's. -/
theorem idx_onto : ∀ q0 : Fin 8, ∃ t : Fin cfg0.N, win0_5.index t = ![q0.val, 0] :=
  (by decide +kernel : ∀ q0 : Fin 8, ∃ t : Fin grid0.N, win0_5.index t = ![q0.val, 0])

/-- WHAT POINT t WRITES BACK is block t of `msgPad` of the arrays as the region finds them. -/
theorem flushed_eq (c : Dev nD) (t : Fin cfg0.N) :
    (dats m 0 c).flushed 5 t = ((cfg0.win 5).blk t).view.read (Elt Ideal)
      (msgPad (V m c main_v3) (V m c main_arg3) (V m c main_v4) (V m c main_arg5) (V m c main_v5)) := by
  show (cfg0.win 5).cut (grid0.coords t) ((dats m 0 c).after 5 t) = _
  rw [after0_5]
  unfold out0_5
  rw [View.canon_unit_zero hz]
  simp only [View.ld_unit_zero (S := S12800x32) hz, View.ld_unit_zero (S := S32x64) hz, View.ld_unit_zero (S := S1x64) hz,
    View.ld_unit_zero (S := S64x32) hz, View.ld_unit_zero (S := S1x32) hz]
  obtain ⟨e0, e01, e51, e10, e11, e20, e21, e30, e31, e40, e41, e5⟩ := idx_facts t
  funext j
  obtain ⟨p, q, rfl⟩ : ∃ (p : Fin 12800) (q : Fin 32), j = ix2 p q := ⟨j 0, j 1, eq_ix2 j⟩
  refine (Block.pay_apply (iblk m c 0 t) (iblk m c 1 t) (iblk m c 2 t) (iblk m c 3 t) (iblk m c 4 t) p q).trans ?_
  show _ = msgPad _ _ _ _ _ (((cfg0.win 5).blk t).view.emb (ix2 p q))
  unfold msgPad
  -- the weights and biases: one block, the whole array, at every point
  have r1 : ∀ y : S32x64.Idx, iblk m c 1 t y = V m c main_arg3 y := fun y => by
    show V m c main_arg3 (((cfg0.win 1).blk t).view.emb y) = V m c main_arg3 y
    refine congrArg _ (funext fun a => Fin.ext ?_)
    match a with
    | ⟨0, _⟩ => show win0_1.index t (0 : Fin 2) * 32 + 1 * (y 0).val = (y 0).val; omega
    | ⟨1, _⟩ => show win0_1.index t (1 : Fin 2) * 64 + 1 * (y 1).val = (y 1).val; omega
  have r2 : ∀ y : S1x64.Idx, iblk m c 2 t y = V m c main_v4 y := fun y => by
    show V m c main_v4 (((cfg0.win 2).blk t).view.emb y) = V m c main_v4 y
    refine congrArg _ (funext fun a => Fin.ext ?_)
    match a with
    | ⟨0, _⟩ => show win0_2.index t (0 : Fin 2) * 1 + 1 * (y 0).val = (y 0).val; omega
    | ⟨1, _⟩ => show win0_2.index t (1 : Fin 2) * 64 + 1 * (y 1).val = (y 1).val; omega
  have r3 : ∀ y : S64x32.Idx, iblk m c 3 t y = V m c main_arg5 y := fun y => by
    show V m c main_arg5 (((cfg0.win 3).blk t).view.emb y) = V m c main_arg5 y
    refine congrArg _ (funext fun a => Fin.ext ?_)
    match a with
    | ⟨0, _⟩ => show win0_3.index t (0 : Fin 2) * 64 + 1 * (y 0).val = (y 0).val; omega
    | ⟨1, _⟩ => show win0_3.index t (1 : Fin 2) * 32 + 1 * (y 1).val = (y 1).val; omega
  have r4 : ∀ y : S1x32.Idx, iblk m c 4 t y = V m c main_v5 y := fun y => by
    show V m c main_v5 (((cfg0.win 4).blk t).view.emb y) = V m c main_v5 y
    refine congrArg _ (funext fun a => Fin.ext ?_)
    match a with
    | ⟨0, _⟩ => show win0_4.index t (0 : Fin 2) * 1 + 1 * (y 0).val = (y 0).val; omega
    | ⟨1, _⟩ => show win0_4.index t (1 : Fin 2) * 32 + 1 * (y 1).val = (y 1).val; omega
  -- the input rows: row p of point t's input block is the row of the padded table the output entry sits in
  have r0 : ∀ l : Fin 32, iblk m c 0 t (ix2 p l)
      = V m c main_v3 (ix2 ((((cfg0.win 5).blk t).view.emb (ix2 p q)) 0) l) := fun l => by
    show V m c main_v3 (((cfg0.win 0).blk t).view.emb (ix2 p l)) = _
    refine congrArg _ (funext fun a => Fin.ext ?_)
    match a with
    | ⟨0, _⟩ =>
      show win0_0.index t (0 : Fin 2) * 12800 + 1 * p.val = win0_5.index t (0 : Fin 2) * 12800 + 1 * p.val; omega
    | ⟨1, _⟩ => show win0_0.index t (1 : Fin 2) * 32 + 1 * l.val = l.val; omega
  have rq : (((cfg0.win 5).blk t).view.emb (ix2 p q)) 1 = q :=
    Fin.ext (show win0_5.index t (1 : Fin 2) * 32 + 1 * q.val = q.val by omega)
  simp only [r0, r1, r2, r3, r4, rq]

/-- An index of the output is in point t's block iff each coordinate is in the block's range on its axis. -/
theorem mem_blk (t : Fin cfg0.N) (i : S102400x32.Idx) :
    i ∈ ((cfg0.win 5).blk t).view.set ↔ ∀ a : Fin 2, win0_5.index t a * S12800x32.size a ≤ (i a).val
      ∧ (i a).val < win0_5.index t a * S12800x32.size a + S12800x32.size a := by
  show i ∈ ((View.whole main_v6).slice (win0_5.rect t)).set ↔ _
  rw [View.set_slice_whole, Rect.mem_set_unit]
  exact Iff.rfl

/-- The 8 row blocks tile the output: row r is in the block of point r / 12800. -/
theorem cover (i : S102400x32.Idx) :
    ∃ t : Fin cfg0.N, (cfg0.win 5).flush t = true ∧ i ∈ ((cfg0.win 5).blk t).view.set := by
  have hi0 : (i 0).val < 102400 := (i 0).isLt
  have hi1 : (i 1).val < 32 := (i 1).isLt
  obtain ⟨t, ht⟩ := idx_onto ⟨(i 0).val / 12800, by omega⟩
  have q0 : win0_5.index t (0 : Fin 2) = (i 0).val / 12800 := congrFun ht 0
  have q1 : win0_5.index t (1 : Fin 2) = 0 := congrFun ht 1
  refine ⟨t, flush0_5 t, ?_⟩
  rw [mem_blk]
  intro a
  match a with
  | ⟨0, _⟩ =>
    show win0_5.index t (0 : Fin 2) * 12800 ≤ (i 0).val ∧ (i 0).val < win0_5.index t (0 : Fin 2) * 12800 + 12800
    omega
  | ⟨1, _⟩ =>
    show win0_5.index t (1 : Fin 2) * 32 ≤ (i 1).val ∧ (i 1).val < win0_5.index t (1 : Fin 2) * 32 + 32
    omega

/-- THE OUTPUT ARRAY after the region: the perceptron of every row of the padded node table. -/
theorem final (c : Dev nD) : (dats m 0 c).arrAt 5 cfg0.N
    = msgPad (V m c main_v3) (V m c main_arg3) (V m c main_v4) (V m c main_arg5) (V m c main_v5) :=
  (dats m 0 c).arrAt_eq_of_cover 5 _ (fun t _ => flushed_eq m c t) cover

end Cert.KernelIdeal.Arr

end
-- ==== Proof.LibRowGather.lean ====
/-
  A row gather read at an index.

  `table[idx]` over a rank-2 table [N, C] at a column [n, 1] of start indices is a `stablehlo.gather` whose
  operand axis 0 is collapsed and start-indexed, whose operand axis 1 is the one offset axis (slice width C),
  with no batching axes and the index vector on axis 1 of the start indices. Its result at (p, q) is the
  table's entry at (r, q), where r is row p's start index read as a signed integer and clamped into
  [0, N - 1]: the column coordinate passes through unchanged and the row read depends on p alone.
  So a gather of rows commutes with any map that acts on each row separately.
-/
import Idealize.ShloMosaic.Lib.ValueIdx
import Idealize.ShloMosaic.PureOps

namespace RowGather

open Idealize.ShloMosaic Idealize.ShloMosaic.ValueIdx

/-- The position of row `p`'s start index in an [n, 1] column of start indices. -/
abbrev col {n : Nat} (p : Fin n) : (⟨2, ![n, 1]⟩ : Shape).Idx := ix2 p (0 : Fin 1)

/-- The table row a start index selects: the index read signed, clamped into [0, N - 1]. -/
def rowOf {w : Nat} (N : Nat) (hN : 0 < N) (s : BitVec w) : Fin N := ⟨min s.toInt.toNat (N - 1), by omega⟩

/-- The operand index of a row gather, axis by axis: the clamped start on the row axis, the result's own
    column on the offset axis. -/
theorem operandIdx_rows {N C n w : Nat} (hN : 0 < N)
    (d : GatherDims ⟨2, ![N, C]⟩ ⟨2, ![n, 1]⟩ ⟨2, ![n, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (idx : IVec ⟨2, ![n, 1]⟩ w) (p : Fin n) (q : Fin C) :
    d.operandIdx (ix2 p q) idx = ix2 (rowOf N hN (idx (col p))) q := by
  have hsl : d.sliceSizes 0 = 1 := d.slice_collapsed 0 (by rw [hcoll]; exact List.mem_singleton.mpr rfl)
  obtain ⟨od, cd, ob, sb, sm, iv, ss, wf⟩ := d
  dsimp only at hoff hcoll hob hsb hsim hivd hsl
  subst hoff hcoll hob hsb hsim hivd
  funext a
  apply Fin.ext
  match a with
  | ⟨0, _⟩ =>
    simp [GatherDims.operandIdx, GatherDims.start, GatherDims.batchCoord, GatherDims.offCoord, GatherDims.sKept,
      Shape.kept, rowOf, hsl]
    refine congrArg (fun z => min (idx z).toInt.toNat (N - 1)) ?_
    funext b
    apply Fin.ext
    match b with
    | ⟨0, _⟩ =>
      simp [GatherDims.siIdx, GatherDims.siCoord, GatherDims.siKept, GatherDims.batchDims, Shape.kept]
      rfl
    | ⟨1, _⟩ =>
      simp [GatherDims.siIdx]
  | ⟨1, _⟩ =>
    simp [GatherDims.operandIdx, GatherDims.start, GatherDims.batchCoord, GatherDims.offCoord, GatherDims.sKept,
      Shape.kept, rowOf, hsl]
    rfl

end RowGather
-- ==== Proof.LibIndexMask.lean ====
/-
  An index mask that is all ones.

  jnp.take guards a gather by a mask: it wraps a negative index once (i + N when i < 0), tests 0 ≤ i ≤ N - 1 on the
  wrapped index, reduces the test by `and` over the index vector's axis, and fills the rows where the test fails.
  Two facts make the guard vanish when every index lies in [-N, N): the wrapped index then lies in [0, N - 1]
  (signed 32-bit arithmetic, no overflow: |i| ≤ N < 2³¹), and a reduction by `and`, started at 1, of an array
  that is 1 everywhere is 1.
-/
import Idealize.ShloMosaic.Lib.ReduceAll
import Idealize.ShloMosaic.PureOps

namespace IndexMask

open Idealize.ShloMosaic

/-! ## A reduction by `and` of ones -/

/-- A left fold by `and` that starts at 1 and meets only 1s ends at 1. -/
theorem foldl_andi_of_all_one {ι : Type} (f : ι → BitVec 1) :
    ∀ (l : List ι) (init : BitVec 1), init = 1#1 → (∀ n ∈ l, f n = 1#1) →
      l.foldl (fun r n => IntOp.andi r (f n)) init = 1#1
  | [], _, h, _ => h
  | a :: l, init, h, hl => by
    rw [List.foldl_cons]
    exact foldl_andi_of_all_one f l _ (IntOp.andi_eq_one.2 ⟨h, hl a List.mem_cons_self⟩)
      (fun n hn => hl n (List.mem_cons_of_mem _ hn))

/-- A `stablehlo.reduce` by `and` from the initial value 1 over an array that is 1 everywhere is 1 at every
    result index (the converse of reading a `jnp.all` back). -/
theorem reduce_andi_of_all {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl]
  exact foldl_andi_of_all_one x _ _ hinit (fun n _ => hx n)

/-! ## A signed index wrapped once -/

/-- `i + n` when `i < 0`, else `i`: NumPy's reading of a negative index, as jnp prints it. -/
def wrap (n s : BitVec 32) : BitVec 32 := Scalar.select (IntOp.cmpi .slt s 0#32) (IntOp.addi s n) s

/-- For N = 100000: an index in [-N, N) wraps into [0, N - 1]. The words are the printed ones (-100000 is
    4294867296 as an unsigned 32-bit word). -/
theorem wrap_in_range (s : BitVec 32) (hlo : IntOp.cmpi .sge s 4294867296#32 = 1#1)
    (hhi : IntOp.cmpi .slt s 100000#32 = 1#1) :
    IntOp.cmpi .sge (wrap 100000#32 s) 0#32 = 1#1 ∧ IntOp.cmpi .sle (wrap 100000#32 s) 99999#32 = 1#1 := by
  have e1 : (4294867296#32 : BitVec 32).toInt = -100000 := by decide
  have e2 : (100000#32 : BitVec 32).toInt = 100000 := by decide
  have e3 : (0#32 : BitVec 32).toInt = 0 := by decide
  have e4 : (99999#32 : BitVec 32).toInt = 99999 := by decide
  rw [IntOp.cmpi_sge, e1] at hlo
  rw [IntOp.cmpi_slt, e2] at hhi
  rw [IntOp.cmpi_sge, IntOp.cmpi_sle, e3, e4]
  by_cases h : IntOp.cmpi .slt s 0#32 = 1#1
  · have hw : wrap 100000#32 s = s + 100000#32 := if_pos h
    rw [hw]
    rw [IntOp.cmpi_slt, e3] at h
    rw [BitVec.toInt_add, e2]
    have : (s.toInt + 100000).bmod (2 ^ 32) = s.toInt + 100000 := by
      apply Int.bmod_eq_of_le <;> omega
    rw [this]; omega
  · have hw : wrap 100000#32 s = s := if_neg h
    rw [hw]
    rw [IntOp.cmpi_slt, e3] at h
    omega

end IndexMask
-- ==== Proof.KernelRows.lean ====
/-
  jnp.take of the message table, entry by entry.

  jnp.take wraps a negative index once, gathers with the index clamped into range, and overwrites a row
  with the fill value wherever the wrapped index is outside [0, 99999]. With every source index in
  [-100000, 100000) the wrapped index is in range for every edge, the mask that guards the gather is 1
  everywhere, and row e of the result is the table's row at the wrapped index.
-/
import proofs.«415394_j4123168604885_3_alg».proof.Proof.KernelArray
import proofs.«415394_j4123168604885_3_alg».proof.Proof.LibRowGather
import proofs.«415394_j4123168604885_3_alg».proof.Proof.LibIndexMask
import Idealize.ShloMosaic.Lib.Pipeline.Value

noncomputable section

namespace Cert.KernelIdeal.Rows

open Cert.KernelIdeal Cert.KernelIdeal.Gen Idealize.ShloMosaic Idealize.ShloMosaic.ValueIdx

/-! ## jnp.take, as printed -/

/-- A source index wrapped once, for every edge. -/
def wrapped (s : IVec S3200000 32) : IVec S3200000 32 :=
  select (cmpi .slt s (broadcastInDim S3200000 ![] bcast_S_S3200000 (constantI S_ 32 0#32)))
    (addi s (broadcastInDim S3200000 ![] bcast_S_S3200000 (constantI S_ 32 100000#32))) s

/-- The wrapped indices as the [3200000, 1] column of start indices the gather reads. -/
def startCol (s : IVec S3200000 32) : IVec S3200000x1 32 :=
  broadcastInDim S3200000x1 ![0] bcast_S3200000_S3200000x1_0 (wrapped s)

/-- The per-edge test 0 ≤ index ≤ 99999 on the wrapped index, reduced by `and` over the index vector's one component. -/
def inRange (s : IVec S3200000 32) : IVec S3200000 1 :=
  Host.reduce IntOp.andi
    (andi (cmpi .sge (startCol s) (broadcastInDim S3200000x1 ![] bcast_S_S3200000x1 (constantI S_ 32 0#32)))
      (cmpi .sle (startCol s) (broadcastInDim S3200000x1 ![0, 1] bcast_S1x1_S3200000x1_0_1
        (broadcastInDim S1x1 ![1] bcast_S1_S1x1_1 (constantI S1 32 99999#32)))))
    (constantI S_ 1 1#1) reducesTo_S3200000x1_S3200000_d1 h_S_

/-- `jnp.take(tbl, s, axis=0)` in its default mode: the gathered rows where the wrapped index is in range, the fill
    value (a NaN pattern) elsewhere. -/
def takeRows (tbl : FVec Ideal S100000x32 .f32) (s : IVec S3200000 32) : FVec Ideal S3200000x32 .f32 :=
  select (broadcastInDim S3200000x32 ![0] bcast_S3200000_S3200000x32_0 (inRange s))
    (Host.gather gather_S100000x32_S3200000x1_S3200000x32_1_0_n_n_0_1_132 tbl (startCol s))
    (broadcastInDim S3200000x32 ![] bcast_S_S3200000x32 (constant S_ .f32 0x7FC00000#32))

/-- Rows 0 (sources) and 1 (destinations) of edge_index, each as a vector of 3200000 words. -/
def edgeRow0 (ei : IVec S2x3200000 32) : IVec S3200000 32 :=
  shapeCast S3200000 (extractStridedSlice S1x3200000 ![0, 0] ei slices_S2x3200000_S1x3200000_0_0) shapeCasts_S1x3200000_S3200000
@[inherit_doc edgeRow0]
def edgeRow1 (ei : IVec S2x3200000 32) : IVec S3200000 32 :=
  shapeCast S3200000 (extractStridedSlice S1x3200000 ![1, 0] ei slices_S2x3200000_S1x3200000_1_0) shapeCasts_S1x3200000_S3200000

/-- The node table as @main builds it: the 24 columns of x beside the 8 scalars repeated on every row. -/
def nodeTable (x : FVec Ideal S100000x24 .f32) (sc : FVec Ideal S8 .f32) : FVec Ideal S100000x32 .f32 :=
  concatenate S100000x32 1 [⟨S100000x24, x⟩,
    ⟨S100000x8, broadcastInDim S100000x8 ![0, 1] bcast_S1x8_S100000x8_0_1 (shapeCast S1x8 sc shapeCasts_S8_S1x8)⟩]
    concatenates_S100000x24_S100000x8_S100000x32_d1

/-! ## The taken rows -/

/-- Every source index in [-100000, 100000), read signed: what the precondition gives. -/
def SrcInRange (s : IVec S3200000 32) : Prop :=
  ∀ e : Fin 3200000, IntOp.cmpi .sge (s (ix1 e)) 4294867296#32 = 1#1 ∧ IntOp.cmpi .slt (s (ix1 e)) 100000#32 = 1#1

/-- The start index the gather reads for edge e is the edge's source index wrapped once. -/
theorem startCol_apply (s : IVec S3200000 32) (e : Fin 3200000) :
    startCol s (RowGather.col e) = IndexMask.wrap 100000#32 (s (ix1 e)) := by
  unfold startCol
  rw [broadcastInDim_apply _ bcast_S3200000_S3200000x1_0 (wrapped s) (RowGather.col e) (ix1 e) (fun a => match a with
    | ⟨0, _⟩ => by show e.val = if (3200000 : Nat) = 1 then 0 else e.val; rw [if_neg (by decide)])]
  rfl

/-- With the sources in range the guard is 1 at every edge. -/
theorem inRange_of (s : IVec S3200000 32) (hs : SrcInRange s) (j : S3200000.Idx) : inRange s j = 1#1 := by
  unfold inRange
  refine IndexMask.reduce_andi_of_all _ _ _ _ _ rfl (fun i => ?_)
  obtain ⟨e, z, rfl⟩ : ∃ (e : Fin 3200000) (z : Fin 1), i = ix2 e z := ⟨i 0, i 1, eq_ix2 i⟩
  obtain rfl : z = 0 := Subsingleton.elim _ _
  have hw := IndexMask.wrap_in_range (s (ix1 e)) (hs e).1 (hs e).2
  rw [← startCol_apply s e] at hw
  exact IntOp.andi_eq_one.2 hw

/-- Row e of what jnp.take returns is the table's row at the wrapped source index (clamped, which changes nothing
    in range). -/
theorem takeRows_apply (tbl : FVec Ideal S100000x32 .f32) (s : IVec S3200000 32) (hs : SrcInRange s)
    (e : Fin 3200000) (q : Fin 32) :
    takeRows tbl s (ix2 e q)
      = tbl (ix2 (RowGather.rowOf 100000 (by decide) (IndexMask.wrap 100000#32 (s (ix1 e)))) q) := by
  unfold takeRows
  rw [select_apply]
  have hm : broadcastInDim S3200000x32 ![0] bcast_S3200000_S3200000x32_0 (inRange s) (ix2 e q) = 1#1 := by
    rw [broadcastInDim_apply _ bcast_S3200000_S3200000x32_0 (inRange s) (ix2 e q) (ix1 e) (fun a => match a with
      | ⟨0, _⟩ => by show e.val = if (3200000 : Nat) = 1 then 0 else e.val; rw [if_neg (by decide)])]
    exact inRange_of s hs _
  rw [hm, select_one]
  unfold Host.gather
  rw [RowGather.operandIdx_rows (by decide) gather_S100000x32_S3200000x1_S3200000x32_1_0_n_n_0_1_132 rfl rfl rfl rfl rfl rfl
    (startCol s) e q, startCol_apply]

end Cert.KernelIdeal.Rows

end
-- ==== Proof.LibPadRows.lean ====
/-
  Rows appended below a table, read at an index.

  `stablehlo.pad` of a table [M, C] by H extra rows at the end (nothing before, nothing between, no extra
  columns) gives [M', C]; at an entry (r, l) with r < M it reads the table's own entry (r, l). The padding
  value is met only in the appended rows.
-/
import Idealize.ShloMosaic.Lib.ValueIdx
import Idealize.ShloMosaic.PureOps

namespace PadRows

open Idealize.ShloMosaic Idealize.ShloMosaic.ValueIdx

/-- Above the appended rows a padded table is the table. -/
theorem pad_rows_apply {α : Type} {M M' C H : Nat} (x : (⟨2, ![M, C]⟩ : Shape).Idx → α) {u : Shape} (v : u.Idx → α)
    (h : (⟨2, ![M, C]⟩ : Shape).Pads ![0, 0] ![H, 0] ![0, 0] ⟨2, ![M', C]⟩) (hu : 0 < u.numel)
    (r : Fin M') (l : Fin C) (hr : r.val < M) :
    pad ⟨2, ![M', C]⟩ ![0, 0] ![H, 0] ![0, 0] x v h hu (ix2 r l) = x (ix2 ⟨r.val, hr⟩ l) := by
  unfold pad
  have hin : ∀ a : Fin (⟨2, ![M, C]⟩ : Shape).rank, (![0, 0] : Fin 2 → Nat) a ≤ ((ix2 r l : (⟨2, ![M', C]⟩ : Shape).Idx) (a.cast h.1)).val
      ∧ (((ix2 r l : (⟨2, ![M', C]⟩ : Shape).Idx) (a.cast h.1)).val - (![0, 0] : Fin 2 → Nat) a) % ((![0, 0] : Fin 2 → Nat) a + 1) = 0
      ∧ (((ix2 r l : (⟨2, ![M', C]⟩ : Shape).Idx) (a.cast h.1)).val - (![0, 0] : Fin 2 → Nat) a) / ((![0, 0] : Fin 2 → Nat) a + 1)
          < (⟨2, ![M, C]⟩ : Shape).size a := by
    intro a
    match a with
    | ⟨0, _⟩ => exact ⟨Nat.zero_le _, by simp [Nat.mod_one], by simpa using hr⟩
    | ⟨1, _⟩ => exact ⟨Nat.zero_le _, by simp [Nat.mod_one], by simpa using l.isLt⟩
  rw [dif_pos hin]
  refine congrArg x (funext fun a => Fin.ext ?_)
  match a with
  | ⟨0, _⟩ => simp
  | ⟨1, _⟩ => simp

end PadRows
-- ==== Proof.KernelTail.lean ====
/-
  After the region: the rows of each edge's source, summed at its destination.

  Before the region @main builds the node table [x | scalars], pads it with 2400 rows to 102400, and lays
  each bias out as a [1, n] row. After it, the host lines drop the padding rows of the message table, take row
  src[e] of it for every edge e (jnp.take: KernelRows.lean), and scatter-add the taken rows at dst. So with
  the sources in range the row added for edge e is the perceptron of the node table's row at src[e]: the
  padding rows are never selected, and a row below them is read through the padding unchanged.
-/
import proofs.«415394_j4123168604885_3_alg».proof.Proof.KernelRows
import proofs.«415394_j4123168604885_3_alg».proof.Proof.LibPadRows
import Idealize.ShloMosaic.Lib.StableHlo.Run
import Idealize.ShloMosaic.Lib.ValueLayout

set_option maxRecDepth 16384

noncomputable section

namespace Cert.KernelIdeal.Tail

open Cert.KernelIdeal Cert.KernelIdeal.Gen Cert.KernelIdeal.Arr Cert.KernelIdeal.Rows Idealize.ShloMosaic Idealize.ShloMosaic.TcCoe
open Idealize.ShloMosaic.ValueIdx Idealize.SL.Sem Idealize.ShloMosaic.StableHlo

variable (m : (ℓ : Loc nD τ sig) → Buf (Elt Ideal) ℓ) (ρ : Dev nD → PrngReg)

/-! ## The arrays the region finds -/

/-- The padded node table: [x | scalars] with 2400 rows of the converted constant 0 below. -/
theorem V_v3 (c : Dev nD) : V m c main_v3
    = pad S102400x32 ![0, 0] ![2400, 0] ![0, 0] (nodeTable (m ((c : Thread nD τ).loc main_arg0)) (m ((c : Thread nD τ).loc main_arg1)))
        (sitofp (F := Ideal) .f32 (constantI S_ 32 0#32)) pads_S100000x32_S102400x32_024000_000 h_S_ := by
  dsimp only [V, V0]
  simp only [hostOps0, hostOps0_1, hostOps0_2, List.flatten_cons, List.flatten_nil, List.append_nil, List.cons_append,
    List.nil_append]
  after_results
  rfl

/-- The first bias as a [1, 64] row. -/
theorem V_v4 (c : Dev nD) : V m c main_v4 = shapeCast S1x64 (m ((c : Thread nD τ).loc main_arg4)) shapeCasts_S64_S1x64 := by
  dsimp only [V, V0]
  simp only [hostOps0, hostOps0_1, hostOps0_2, List.flatten_cons, List.flatten_nil, List.append_nil, List.cons_append,
    List.nil_append]
  after_results
  rfl

/-- The second bias as a [1, 32] row. -/
theorem V_v5 (c : Dev nD) : V m c main_v5 = shapeCast S1x32 (m ((c : Thread nD τ).loc main_arg6)) shapeCasts_S32_S1x32 := by
  dsimp only [V, V0]
  simp only [hostOps0, hostOps0_1, hostOps0_2, List.flatten_cons, List.flatten_nil, List.append_nil, List.cons_append,
    List.nil_append]
  after_results
  rfl

/-! ## The result buffer after the host lines -/

/-- Contents carried to a buffer's own type and back are the contents. -/
theorem ofBuf_toBuf {T : BufTy} (x : TRef sig T) (v : T.Contents (Elt Ideal)) : x.ofBuf (x.toBuf v) = v := by
  obtain ⟨r, h, _, _⟩ := x
  subst h
  rfl

/-! ## The rows the tail scatters -/

/-- The message table without its padding rows, as the tail slices it off the region's output. -/
def msg (c : Dev nD) : FVec Ideal S100000x32 .f32 :=
  extractStridedSlice S100000x32 ![0, 0]
    (msgPad (V m c main_v3) (V m c main_arg3) (V m c main_v4) (V m c main_arg5) (V m c main_v5))
    slices_S102400x32_S100000x32_0_0

/-- Entry (r, q) of the message table is the perceptron of the node table's row r. -/
theorem msg_apply (c : Dev nD) (r : Fin 100000) (q : Fin 32) :
    msg m c (ix2 r q)
      = Mlp.row (fun l k => m ((c : Thread nD τ).loc main_arg3) (ix2 l k)) (fun k => m ((c : Thread nD τ).loc main_arg4) (ix1 k))
          (fun k j => m ((c : Thread nD τ).loc main_arg5) (ix2 k j)) (fun j => m ((c : Thread nD τ).loc main_arg6) (ix1 j))
          (fun l => nodeTable (m ((c : Thread nD τ).loc main_arg0)) (m ((c : Thread nD τ).loc main_arg1)) (ix2 r l)) q := by
  have hr : r.val < 102400 := by have := r.isLt; omega
  unfold msg
  rw [extractStridedSlice_apply _ _ slices_S102400x32_S100000x32_0_0 (ix2 r q) (ix2 (⟨r.val, hr⟩ : Fin 102400) q)
    (fun a => match a with
      | ⟨0, _⟩ => by show r.val = 0 + r.val; omega
      | ⟨1, _⟩ => by show q.val = 0 + q.val; omega)]
  unfold msgPad
  have hA : (fun (l : Fin 32) (k : Fin 64) => V m c main_arg3 (ix2 l k))
      = fun l k => m ((c : Thread nD τ).loc main_arg3) (ix2 l k) := by rw [V_main_arg3]
  have hB : (fun k : Fin 64 => V m c main_v4 (ix2 (0 : Fin 1) k))
      = fun k => m ((c : Thread nD τ).loc main_arg4) (ix1 k) := by
    funext k; rw [V_v4]; exact shapeCast_a_1a_apply _ _ 0 k
  have hC : (fun (k : Fin 64) (j : Fin 32) => V m c main_arg5 (ix2 k j))
      = fun k j => m ((c : Thread nD τ).loc main_arg5) (ix2 k j) := by rw [V_main_arg5]
  have hD : (fun j : Fin 32 => V m c main_v5 (ix2 (0 : Fin 1) j))
      = fun j => m ((c : Thread nD τ).loc main_arg6) (ix1 j) := by
    funext j; rw [V_v5]; exact shapeCast_a_1a_apply _ _ 0 j
  have hE : (fun l : Fin 32 => V m c main_v3 (ix2 (⟨r.val, hr⟩ : Fin 102400) l))
      = fun l => nodeTable (m ((c : Thread nD τ).loc main_arg0)) (m ((c : Thread nD τ).loc main_arg1)) (ix2 r l) := by
    funext l; rw [V_v3]
    exact PadRows.pad_rows_apply _ _ pads_S100000x32_S102400x32_024000_000 h_S_ ⟨r.val, hr⟩ l r.isLt
  show Mlp.row (fun l k => V m c main_arg3 (ix2 l k)) (fun k => V m c main_v4 (ix2 (0 : Fin 1) k))
      (fun k j => V m c main_arg5 (ix2 k j)) (fun j => V m c main_v5 (ix2 (0 : Fin 1) j))
      (fun l => V m c main_v3 (ix2 (⟨r.val, hr⟩ : Fin 102400) l)) q = _
  rw [hA, hB, hC, hD, hE]

/-- With the sources in range, the row the tail adds for edge e is the perceptron of the node table's row at the
    wrapped source index. -/
theorem upd_apply (c : Dev nD) (hs : SrcInRange (edgeRow0 (m ((c : Thread nD τ).loc main_arg2)))) (e : Fin 3200000) (q : Fin 32) :
    takeRows (msg m c) (edgeRow0 (m ((c : Thread nD τ).loc main_arg2))) (ix2 e q)
      = Mlp.row (fun l k => m ((c : Thread nD τ).loc main_arg3) (ix2 l k)) (fun k => m ((c : Thread nD τ).loc main_arg4) (ix1 k))
          (fun k j => m ((c : Thread nD τ).loc main_arg5) (ix2 k j)) (fun j => m ((c : Thread nD τ).loc main_arg6) (ix1 j))
          (fun l => nodeTable (m ((c : Thread nD τ).loc main_arg0)) (m ((c : Thread nD τ).loc main_arg1))
            (ix2 (RowGather.rowOf 100000 (by decide) (IndexMask.wrap 100000#32 (edgeRow0 (m ((c : Thread nD τ).loc main_arg2)) (ix1 e)))) l)) q := by
  rw [takeRows_apply _ _ hs, msg_apply]

set_option maxHeartbeats 4000000 in
/-- @main's result after the tail: zeros, scatter-added at dst with the rows jnp.take reads off the message table. -/
theorem tail_eq (c : Dev nD) :
    Pipeline.afterTail₀ cfgs (dats m) 0 (V0 m) [hostOps1, hostOps1_1, hostOps1_2] c main_v15
      = Host.scatterAdd scatter_S100000x32_S3200000x1_S3200000x32_1_0_0_1
          (broadcastInDim S100000x32 ![] bcast_S_S100000x32 (constant S_ .f32 0x00000000#32))
          (broadcastInDim S3200000x1 ![0] bcast_S3200000_S3200000x1_0 (edgeRow1 (m ((c : Thread nD τ).loc main_arg2))))
          (takeRows (msg m c) (edgeRow0 (m ((c : Thread nD τ).loc main_arg2)))) := by
  unfold Pipeline.afterTail₀
  simp only [hostOps1, hostOps1_1, hostOps1_2, List.flatten_cons, List.flatten_nil, List.append_nil, List.cons_append,
    List.nil_append]
  after_results_simp
  simp only [ofBuf_toBuf]
  have hw2 : Pipeline.withArrays (cfgs 0).spec c (V0 m c) (fun w => (dats m 0 c).arrAt w (cfgs 0).N)
      (Proc.devRef .tc main_arg2) = m ((c : Thread nD τ).loc main_arg2) :=
    (Pipeline.withArrays_of_ne _ c (V0 m c) _ main_arg2
      (by exact (by decide : ∀ w, Pipeline.arrRef spec0 w ≠ main_arg2))).trans (V_main_arg2 m c)
  have hw6 : Pipeline.withArrays (cfgs 0).spec c (V0 m c) (fun w => (dats m 0 c).arrAt w (cfgs 0).N)
      (Proc.devRef .tc main_v6)
      = msgPad (V m c main_v3) (V m c main_arg3) (V m c main_v4) (V m c main_arg5) (V m c main_v5) :=
    (Pipeline.withArrays_arr spec0 launch0.win.arr_inj c _ _ 5).trans (final m c)
  rw [hw2, hw6]
  unfold takeRows inRange startCol wrapped edgeRow0 edgeRow1 msg
  refine congrArg₂ (Host.scatterAdd scatter_S100000x32_S3200000x1_S3200000x32_1_0_0_1 _) ?_ ?_
  · rfl
  · have t12 : ∀ v : (⟨S3200000x32, .f32⟩ : BufTy).Contents (Elt Ideal),
        (TRef.of (T := ⟨S3200000x32, .f32⟩) main_v12 rfl (by decide) rfl).toBuf v = v := fun v => rfl
    have t9 : ∀ v : main_v9.ty.Contents (Elt Ideal),
        (TRef.of (T := ⟨S3200000, .i32⟩) main_v9 rfl (by decide) rfl).ofBuf v = v := fun v => rfl
    have t7 : ∀ v : main_v7.ty.Contents (Elt Ideal),
        (TRef.of (T := ⟨S100000x32, .f32⟩) main_v7 rfl (by decide) rfl).ofBuf v = v := fun v => rfl
    simp only [t12, t9, t7]
    rfl

end Cert.KernelIdeal.Tail

end
-- ==== Proof.RefValue.lean ====
/-
  The reference's update rows, entry by entry.

  The reference gathers the input row of each edge's source first and runs the perceptron on the gathered
  [3200000, 32] table: two host matrix products (each a plain sum over the contracted axis on the extended
  reals), the biases broadcast over the rows, and the relu as a maximum with a splat zero. Entry (e, q) of
  the rows it then scatters is the perceptron of Mlp.lean at row e of the gathered table.
-/
import proofs.«415394_j4123168604885_3_alg».proof.Proof.Gen.ReferenceIdeal.Read
import proofs.«415394_j4123168604885_3_alg».proof.Proof.Mlp
import proofs.«415394_j4123168604885_3_alg».proof.Proof.LibRowGather
import proofs.«415394_j4123168604885_3_alg».proof.Proof.LibIndexMask

noncomputable section

namespace Cert.ReferenceIdeal.RefValue

open Cert.ReferenceIdeal Cert.ReferenceIdeal.Gen Cert.ReferenceIdeal.Read Idealize.ShloMosaic Idealize.ShloMosaic.ValueIdx

/-! ## The stages' index maps, as coordinates -/

theorem l19 (e : Fin 3200000) (q : Fin 32) (k : Fin 64) : lidx_main_v19 (ix2 e q) k = ix2 e k :=
  funext fun a => Fin.ext (by match a with | ⟨0, _⟩ => rfl | ⟨1, _⟩ => rfl)
theorem r19 (e : Fin 3200000) (q : Fin 32) (k : Fin 64) : ridx_main_v19 (ix2 e q) k = ix2 k q :=
  funext fun a => Fin.ext (by match a with | ⟨0, _⟩ => rfl | ⟨1, _⟩ => rfl)
theorem l14 (e : Fin 3200000) (k : Fin 64) (l : Fin 32) : lidx_main_v14 (ix2 e k) l = ix2 e l :=
  funext fun a => Fin.ext (by match a with | ⟨0, _⟩ => rfl | ⟨1, _⟩ => rfl)
theorem r14 (e : Fin 3200000) (k : Fin 64) (l : Fin 32) : ridx_main_v14 (ix2 e k) l = ix2 l k :=
  funext fun a => Fin.ext (by match a with | ⟨0, _⟩ => rfl | ⟨1, _⟩ => rfl)
theorem i16 (e : Fin 3200000) (k : Fin 64) : idx_main_v15 (idx_main_v16 (ix2 e k)) = ix1 k :=
  funext fun a => Fin.ext (by match a with | ⟨0, _⟩ => rfl)
theorem i21 (e : Fin 3200000) (q : Fin 32) : idx_main_v20 (idx_main_v21 (ix2 e q)) = ix1 q :=
  funext fun a => Fin.ext (by match a with | ⟨0, _⟩ => rfl)

/-- Entry (e, q) of the update rows is the perceptron at row e of the gathered table. -/
theorem upd_apply (x0 : (⟨S100000x24, .f32⟩ : BufTy).Contents (Elt Ideal)) (x1 : (⟨S8, .f32⟩ : BufTy).Contents (Elt Ideal))
    (x2 : (⟨S2x3200000, .i32⟩ : BufTy).Contents (Elt Ideal)) (x3 : (⟨S32x64, .f32⟩ : BufTy).Contents (Elt Ideal))
    (x4 : (⟨S64, .f32⟩ : BufTy).Contents (Elt Ideal)) (x5 : (⟨S64x32, .f32⟩ : BufTy).Contents (Elt Ideal))
    (x6 : (⟨S32, .f32⟩ : BufTy).Contents (Elt Ideal)) (e : Fin 3200000) (q : Fin 32) :
    val_main_v22 (F := Ideal) x0 x1 x2 x3 x4 x5 x6 (ix2 e q)
      = Mlp.row (fun l k => x3 (ix2 l k)) (fun k => x4 (ix1 k)) (fun k j => x5 (ix2 k j)) (fun j => x6 (ix1 j))
          (fun l => val_main_v13 (F := Ideal) x0 x1 x2 (ix2 e l)) q := by
  unfold Mlp.row
  rw [val_main_v22_apply, val_main_v19_apply, val_main_v21_apply, val_main_v20_apply]
  simp only [val_main_v18_apply, val_main_v17_apply, val_main_v14_apply, val_main_v16_apply, val_main_v15_apply,
    val_main_call0_v0_apply, val_main_call0_cst_apply, Ideal.addf_def, Ideal.maximumf_def, Ideal.ofBits_def,
    Ideal.ofBits_zero_f32, l19, r19, l14, r14, i16, i21]

/-! ## The gathered table -/

/-- The start index the gather reads for edge e is the edge's source index wrapped once. -/
theorem start_apply (x2 : (⟨S2x3200000, .i32⟩ : BufTy).Contents (Elt Ideal)) (e : Fin 3200000) :
    val_main_v12 (F := Ideal) x2 (RowGather.col e) = IndexMask.wrap 100000#32 (val_main_v4 (F := Ideal) x2 (ix1 e)) := by
  rw [val_main_v12_apply]
  have hi : idx_main_v12 (RowGather.col e) = ix1 e := funext fun a => Fin.ext (by match a with | ⟨0, _⟩ => rfl)
  rw [hi]
  rfl

/-- Row e of the gathered table is the node table's row at the wrapped source index, clamped into range. -/
theorem gathered_apply (x0 : (⟨S100000x24, .f32⟩ : BufTy).Contents (Elt Ideal)) (x1 : (⟨S8, .f32⟩ : BufTy).Contents (Elt Ideal))
    (x2 : (⟨S2x3200000, .i32⟩ : BufTy).Contents (Elt Ideal)) (e : Fin 3200000) (l : Fin 32) :
    val_main_v13 (F := Ideal) x0 x1 x2 (ix2 e l)
      = val_main_v2 (F := Ideal) x0 x1
          (ix2 (RowGather.rowOf 100000 (by decide) (IndexMask.wrap 100000#32 (val_main_v4 (F := Ideal) x2 (ix1 e)))) l) := by
  unfold val_main_v13 Host.gather
  rw [RowGather.operandIdx_rows (by decide) gather_S100000x32_S3200000x1_S3200000x32_1_0_n_n_0_1_132 rfl rfl rfl rfl rfl rfl
    (val_main_v12 (F := Ideal) x2) e l, start_apply]

end Cert.ReferenceIdeal.RefValue

end
-- ==== Proof.PreDecode.lean ====
/-
  What the precondition says of the source indices.

  The printed precondition is a chain of `and`s: six finiteness tests of the float inputs, then
  `all((src ≥ -100000) ∧ (src < 100000))` over src = edge_index[0], the row of source indices. Its being
  all ones gives, at the last `and`, that the reduction over the 3200000 indices is 1, hence that each index
  passes both signed comparisons. Nothing here reads the finiteness tests: the two programs apply the same
  row function, and selecting a row before or after it needs no algebra on the values.
-/
import proofs.«415394_j4123168604885_3_alg».proof.Pre_finite_inputs
import Idealize.ShloMosaic.Lib.ReduceAll
import Idealize.ShloMosaic.Lib.ValueIdx

noncomputable section

namespace Cert.Pre_finite_inputs.Decode

open Cert.Pre_finite_inputs Idealize.ShloMosaic

variable [Facts]
open Facts

instance : Subsingleton S_.Idx := ⟨fun a b => funext fun d => d.elim0⟩

/-- The row of source indices, as the precondition spells it: row 0 of edge_index, as a vector. -/
def src (a2 : IVec S2x3200000 32) : IVec S3200000 32 :=
  shapeCast S3200000 (extractStridedSlice S1x3200000 ![0, 0] a2 slices_S2x3200000_S1x3200000_0_0)
    shapeCasts_S1x3200000_S3200000

/-- Under the precondition every source index is at least -100000 and below 100000, read signed. -/
theorem src_range {F : FTy → Type} [FloatOps F] (a0 : FVec F S100000x24 .f32) (a1 : FVec F S8 .f32) (a2 : IVec S2x3200000 32)
    (a3 : FVec F S32x64 .f32) (a4 : FVec F S64 .f32) (a5 : FVec F S64x32 .f32) (a6 : FVec F S32 .f32)
    (h : fn (F := F) a0 a1 a2 a3 a4 a5 a6 = fun _ => 1#1) (e : S3200000.Idx) :
    IntOp.cmpi .sge (src a2 e) 4294867296#32 = 1#1 ∧ IntOp.cmpi .slt (src a2 e) 100000#32 = 1#1 := by
  have h0 := congrFun h ValueIdx.ix0
  dsimp only [fn, fn_part1, fn_part2] at h0
  have h1 := (IntOp.andi_eq_one.1 h0).2
  have h2 := Host.reduce_andi_all _ _ _ _ _ h1 e
  exact IntOp.andi_eq_one.1 h2

end Cert.Pre_finite_inputs.Decode

end
-- ==== Proof.lean ====
/-
  The kernel and the reference compute one function, on the extended reals.

  Both programs build the node table h = [x | scalars] (100000 rows of 32 features) and end in the same
  scatter-add: a zero [100000, 32] array to which, for every edge e, a row of 32 numbers is added at node
  dst[e]. They differ in how that row is made. The reference selects the source's features first, h[src[e]],
  and runs the two-layer perceptron relu(· W1 + b1) W2 + b2 on the selected row. The kernel runs the perceptron
  on every row of h once (in a tiled region over the table padded to 102400 rows, its two roundings to bf16 the
  identity on the extended reals) and selects row src[e] of the result. A perceptron acts on each row
  separately, so selecting a row before or after it gives the same row: both add Mlp.row … (h row r(e)) where
  r(e) is src[e] wrapped once if negative and clamped into [0, 99999].

  The two selections agree only where src[e] is a valid index: jnp.take overwrites the row of an out-of-range
  index with a fill value, which plain indexing does not. The precondition therefore asks, besides finite float
  inputs, that every source index lies in [-100000, 100000); then the fill never applies. Nothing else of the
  precondition is used: no algebra on the values is needed, only which row is read.

  The frames of the two kernel programs and the reference's run are the generated ones; the kernel's value is
  read off its frame run (KernelBlock, KernelArray, KernelRows, KernelTail), the reference's off its run
  (RefValue), and the index range off the printed precondition (PreDecode).
-/
import proofs.«415394_j4123168604885_3_alg».proof.Defs
import proofs.«415394_j4123168604885_3_alg».proof.Proof.Gen.Kernel
import proofs.«415394_j4123168604885_3_alg».proof.Proof.Gen.Kernel.Skeleton
import proofs.«415394_j4123168604885_3_alg».proof.Proof.Gen.Kernel.Launch
import proofs.«415394_j4123168604885_3_alg».proof.Proof.Gen.Kernel.Points
import proofs.«415394_j4123168604885_3_alg».proof.Proof.Gen.Kernel.Frame
import proofs.«415394_j4123168604885_3_alg».proof.Proof.Gen.KernelIdeal
import proofs.«415394_j4123168604885_3_alg».proof.Proof.Gen.KernelIdeal.Skeleton
import proofs.«415394_j4123168604885_3_alg».proof.Proof.Gen.KernelIdeal.Launch
import proofs.«415394_j4123168604885_3_alg».proof.Proof.Gen.KernelIdeal.Points
import proofs.«415394_j4123168604885_3_alg».proof.Proof.Gen.KernelIdeal.Frame
import proofs.«415394_j4123168604885_3_alg».proof.Proof.Gen.ReferenceIdeal
import proofs.«415394_j4123168604885_3_alg».proof.Proof.Gen.ReferenceIdeal.Run
import proofs.«415394_j4123168604885_3_alg».proof.Proof.Gen.ReferenceIdeal.Read
import proofs.«415394_j4123168604885_3_alg».proof.Proof.Gen.Pre_finite_inputs
import proofs.«415394_j4123168604885_3_alg».proof.Proof.KernelTail
import proofs.«415394_j4123168604885_3_alg».proof.Proof.RefValue
import proofs.«415394_j4123168604885_3_alg».proof.Proof.PreDecode
import Idealize.ShloMosaic.Adequacy
import Idealize.ShloMosaic.Init

noncomputable section

namespace Cert.Proof

open Idealize.ShloMosaic Idealize.ShloMosaic.TcCoe Idealize.SL.Sem Idealize.ShloMosaic.ValueIdx

/-! ## The kernel's run, with its result named -/

section KernelRun

open Cert.KernelIdeal Cert.KernelIdeal.Gen Cert.KernelIdeal.Rows Cert.KernelIdeal.Tail

/-- The kernel's result array on core c as a function of the arguments: zeros, scatter-added at dst with the rows
    jnp.take reads off the message table. -/
def kernelResult (m : (ℓ : Loc nD τ sig) → Buf (Elt Ideal) ℓ) (c : Dev nD) :
    Buf (Elt Ideal) ((c.tc : Thread nD τ).loc main_v15) :=
  Host.scatterAdd scatter_S100000x32_S3200000x1_S3200000x32_1_0_0_1
    (broadcastInDim S100000x32 ![] bcast_S_S100000x32 (constant S_ .f32 0x00000000#32))
    (broadcastInDim S3200000x1 ![0] bcast_S3200000_S3200000x1_0 (edgeRow1 (m ((c : Thread nD τ).loc main_arg2))))
    (takeRows (msg m c) (edgeRow0 (m ((c : Thread nD τ).loc main_arg2))))

/-- Every weakly fair execution of the idealized kernel ends with the result array at `kernelResult` and the
    arguments unchanged: the generated frame run, its post read at the result buffer and at each argument. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v15) = kernelResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v15 (Pipeline.mem_restRefs_of main_v15 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 1).trans (((dats m 0 c).arrAt_in 1 rfl _).trans ((A_eq m c 1).trans (V_main_arg3 m c))),
      ((h c).2 main_arg4 (Pipeline.mem_restRefs_of main_arg4 (by decide) (by decide))).trans (W_main_arg4 m (dats m) c),
      ((h c).1 3).trans (((dats m 0 c).arrAt_in 3 rfl _).trans ((A_eq m c 3).trans (V_main_arg5 m c))),
      ((h c).2 main_arg6 (Pipeline.mem_restRefs_of main_arg6 (by decide) (by decide))).trans (W_main_arg6 m (dats m) c)⟩)
    (run_main m ρ)

end KernelRun

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: there is nothing to preserve. -/
theorem preserves : Cert.preserves_Kernel_KernelIdeal := trivial

open Cert.KernelIdeal.Rows in
/-- From memories that agree on the arguments the two idealized programs end with equal results: the same
    scatter-add of rows that are equal edge by edge. -/
theorem algebraic : Cert.algebraic_KernelIdeal_ReferenceIdeal := by
  intro m ρ m' ρ' hpre hagree
  refine ⟨kernelResult m, kernel_run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v25_eq, a0, a1, a2, a3, a4, a5, a6]
  -- every source index is in range, by the precondition
  have hs : SrcInRange (edgeRow0 (m ((c.tc : Thread Cert.KernelIdeal.nD Cert.KernelIdeal.τ).loc Cert.KernelIdeal.main_arg2))) :=
    fun e => Cert.Pre_finite_inputs.Decode.src_range _ _ _ _ _ _ _ (hpre c) (ix1 e)
  unfold Cert.ReferenceIdeal.Read.val_main_v25 kernelResult
  refine congrArg (Host.scatterAdd Cert.KernelIdeal.scatter_S100000x32_S3200000x1_S3200000x32_1_0_0_1 _ _) ?_
  funext j
  obtain ⟨e, q, rfl⟩ : ∃ (e : Fin 3200000) (q : Fin 32), j = ix2 e q := ⟨j 0, j 1, eq_ix2 j⟩
  rw [Cert.ReferenceIdeal.RefValue.upd_apply, Cert.KernelIdeal.Tail.upd_apply m c hs]
  refine congrArg (fun x => Mlp.row _ _ _ _ x q) (funext fun l => ?_)
  rw [Cert.ReferenceIdeal.RefValue.gathered_apply]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
